-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S8x4096 .f32) (main_arg3 : FVec F S4096x8 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S_ : Shape := ⟨0, ![]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 17
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S8192x4096, .f32⟩
  | .hbm, ⟨13, _⟩ => ⟨S8192x4096, .bf16⟩
  | .hbm, ⟨14, _⟩ => ⟨S1x4096, .f32⟩
  | .hbm, ⟨15, _⟩ => ⟨S8192x4096, .f32⟩
  | .hbm, ⟨16, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S4096x8_S8x4096_S4096x4096_1_0_0_1_n_n_wf : DotDims.WF S4096x8 S8x4096 S4096x4096 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S1x1x4096 : Shape := ⟨3, ![1, 1, 4096]⟩
abbrev S4x2048x8 : Shape := ⟨3, ![4, 2048, 8]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x8, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf

class Facts : Prop extends Facts₀ where

variable [Facts]
-- ==== Proof.Pieces.lean ====
/-
  What the kernel body leaves behind at one grid point, case by case, as pure values.

  The body keeps a running `1024 × 1024` accumulator in a scratch buffer across the innermost grid axis. With `x`
  and `w` the point's two input blocks, `acc` what the scratch held before the point, and `step acc x w = acc + x · w`
  (the body's second payload: the product into a zero accumulator, added to `acc`):

    first point of a run (the reset is taken):  the scratch is zeroed, read back, and left at `step 0 x w`;
    a middle point:                             the scratch is left at `step acc x w`;
    last point of a run (the epilogue is taken): the scratch is left at `step acc x w`, and the output block is
                                                 `step acc x w` read back plus the bias row broadcast down the rows
                                                 (the body's third payload).

  Each of these is one store (or a reset store followed by one covering store) through the whole buffer, so the
  buffer reads back exactly the last store's payload, and a load of a whole buffer reads its contents.
-/
import proofs.«163915_j39934605918289_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a run: the scratch ends at the step from the zero block. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle point: the scratch ends at the step from what it held. -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg7.read_unread, harg3.read_unread, harg4.read_unread, View.ld_unit_zero (S := S1024x1024) hz]

/-- Last point of a run: the scratch, likewise. -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg7.read_unread, harg3.read_unread, harg4.read_unread, View.ld_unit_zero (S := S1024x1024) hz]

/-- Last point of a run: the output block is the finished accumulator plus the bias row. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readCov_unit_zero (S := S1024x1024) _ hz, View.readAt_eq_ld, harg7.read_unread, harg3.read_unread,
    harg4.read_unread, harg5.read_unread, View.ld_unit_zero (S := S1024x1024) hz, View.ld_unit_zero (S := S1x1024) hz]

end Cert.KernelIdeal.Pieces

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.Step.lean ====
/-
  The body's three payloads read at one entry, on the extended reals.

    the reset value      is `0` everywhere;
    the step             `acc + x · w` at `(p, q)` is `acc (p, q) + ∑ kk, x (p, kk) · w (kk, q)` — the block product
                         is accumulated into a zero array first, and a sum started from zero is the sum;
    the epilogue         `acc + bias row` at `(p, q)` is `acc (p, q) + β (0, q)` — the one-row block is repeated
                         down the rows.

  The identity reshapes the body spells around its loads and stores do nothing.
-/
import proofs.«163915_j39934605918289_1_alg».proof.Proof.Gen.KernelIdeal.Skeleton
import proofs.«163915_j39934605918289_1_alg».proof.Proof.LibPlainProduct
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Step

open Cert.KernelIdeal Cert.KernelIdeal.Gen

/-- The reset value is zero at every entry. -/
theorem reset_apply (j : S1024x1024.Idx) : k0_pay1 (F := Ideal) j = 0 := by
  unfold k0_pay1
  simp only [shapeCast_self]
  exact Ideal.ofBits_zero_f32

/-- One accumulation step at `(p, q)`. -/
theorem step_apply (acc : FVec Ideal S1024x1024 .f32) (x w : FVec Ideal S1024x1024 .bf16) (p q : Fin 1024) :
    k0_pay2 (F := Ideal) acc x w (ix2 p q) = acc (ix2 p q) + ∑ kk : Fin 1024, x (ix2 p kk) * w (ix2 kk q) := by
  unfold k0_pay2
  simp only [shapeCast_self]
  exact congrArg (acc (ix2 p q) + ·)
    (Cert.LibPlainProduct.matmul_zero_plain_apply (M := 1024) (K := 1024) (N := 1024) x w none p q)

/-- The epilogue at `(p, q)`: the accumulator plus the bias row's entry of column `q`. -/
theorem epilogue_apply (acc : FVec Ideal S1024x1024 .f32) (b : FVec Ideal S1x1024 .f32) (p q : Fin 1024) :
    k0_pay3 (F := Ideal) acc b (ix2 p q) = acc (ix2 p q) + b (ix2 (0 : Fin 1) q) := by
  unfold k0_pay3
  simp only [shapeCast_self]
  refine congrArg (acc (ix2 p q) + ·) ?_
  exact broadcastTo_apply b broadcasts_S1x1024_S1024x1024 (ix2 p q) (ix2 (0 : Fin 1) q) fun a => by
    match a with
    | ⟨0, _⟩ => show (0 : ℕ) = if (1 : ℕ) = 1 then 0 else _; rw [if_pos rfl]
    | ⟨1, _⟩ => show q.val = if (1024 : ℕ) = 1 then 0 else q.val; rw [if_neg (by decide)]

end Cert.KernelIdeal.Step

end
-- ==== Proof.LibNatRead.lean ====
/-
  Arrays read at natural-number coordinates.

  A block of a tiled array is addressed by `tile · size + offset`; carrying the bound `tile · size + offset < extent`
  through every statement about a block is noise. So a rank-2 array is read here at two natural numbers: the entry when
  both are in range, `0` otherwise (a value no statement below depends on). `at2_val` turns an entry read at an
  index's own coordinates back into the entry.
-/
import Idealize.ShloMosaic.Lib.ValueIdx

noncomputable section

namespace NatRead

open Idealize.ShloMosaic Idealize.ShloMosaic.ValueIdx

variable {M N : ℕ}

/-- The entry at row `a`, column `b`, or `0` out of range. -/
def at2 (v : (⟨2, ![M, N]⟩ : Shape).Idx → EReal) (a b : ℕ) : EReal :=
  if h : a < M ∧ b < N then v (ix2 ⟨a, h.1⟩ ⟨b, h.2⟩) else 0

theorem at2_of_lt (v : (⟨2, ![M, N]⟩ : Shape).Idx → EReal) {a b : ℕ} (ha : a < M) (hb : b < N) :
    at2 v a b = v (ix2 ⟨a, ha⟩ ⟨b, hb⟩) := dif_pos ⟨ha, hb⟩

/-- Read at an index's own coordinates: the entry. -/
theorem at2_val (v : (⟨2, ![M, N]⟩ : Shape).Idx → EReal) (i : (⟨2, ![M, N]⟩ : Shape).Idx) :
    at2 v (i 0).val (i 1).val = v i := by
  rw [at2_of_lt v (i 0).isLt (i 1).isLt]
  exact congrArg v (eq_ix2 i).symm

/-- Read at coordinates given as `Fin`s: the entry. -/
theorem at2_fin (v : (⟨2, ![M, N]⟩ : Shape).Idx → EReal) (a : Fin M) (b : Fin N) :
    at2 v a.val b.val = v (ix2 a b) := at2_of_lt v a.isLt b.isLt

end NatRead

end
-- ==== Proof.Spec.lean ====
/-
  The function both programs compute, index by index, on the extended reals.

  The inputs are `x : [4, 2048, 4096]`, a weight `W : [4096, 4096]`, the two low-rank factors `A : [8, 4096]` and
  `B : [4096, 8]`, and `bias : [4096]`. With the scale `4 = 32 / 8` (spelled by both programs as the same float
  pattern, kept unevaluated here),

      weff o k       = W (o, k) + 4 · ∑ r, B (o, r) · A (r, k)            (the merged weight, rank-8 update folded in)
      out (b, s, o)  = (∑ k, x (b, s, k) · weff o k) + bias o.

  This is the merged form: one long contraction against the merged weight, then the bias. The factored form
  `(∑ k, x·W + bias) + 4 · ∑ r, (∑ k, x·A (r, ·)) · B (o, r)` is equal to it when every entry is a real number.
  `AllReal v` says that every entry of an array is (the coercion of) a real number.
-/
import Idealize.ShloMosaic.PureOps.Ideal
import Idealize.ShloMosaic.Lib.ValueIdx

noncomputable section

open scoped BigOperators

namespace Cert.LoraSpec

open Idealize.ShloMosaic Idealize.ShloMosaic.ValueIdx

/-- The scale `alpha / r`, as the pattern both programs spell. -/
abbrev scale : EReal := Ideal.ofBits .f32 0x40800000#32

/-- The merged weight at output feature `o` and input feature `k`. -/
def weff (W : (⟨2, ![4096, 4096]⟩ : Shape).Idx → EReal) (A : (⟨2, ![8, 4096]⟩ : Shape).Idx → EReal)
    (B : (⟨2, ![4096, 8]⟩ : Shape).Idx → EReal) (o k : Fin 4096) : EReal :=
  W (ix2 o k) + scale * ∑ r : Fin 8, B (ix2 o r) * A (ix2 r k)

/-- The result at `(b, s, o)`: row `(b, s)` of `x` against column `o` of the merged weight, plus the bias. -/
def out (x : (⟨3, ![4, 2048, 4096]⟩ : Shape).Idx → EReal) (W : (⟨2, ![4096, 4096]⟩ : Shape).Idx → EReal)
    (A : (⟨2, ![8, 4096]⟩ : Shape).Idx → EReal) (B : (⟨2, ![4096, 8]⟩ : Shape).Idx → EReal)
    (bias : (⟨1, ![4096]⟩ : Shape).Idx → EReal) : (⟨3, ![4, 2048, 4096]⟩ : Shape).Idx → EReal :=
  fun i => (∑ k : Fin 4096, x (ix3 (i 0) (i 1) k) * weff W A B (i 2) k) + bias (ix1 (i 2))

/-- Every entry of the array is a real number. -/
def AllReal {s : Shape} (v : s.Idx → EReal) : Prop := ∀ i, ∃ r : ℝ, v i = (r : EReal)

end Cert.LoraSpec

end
-- ==== Proof.Entry.lean ====
/-
  What the three arrays the kernel stages hold when the region is entered, entry by entry.

  Before the region the program computes, from the arguments `x`, `W`, `A`, `B`, `bias`:

    the left operand   `L (a, k)  = x (a / 2048, a % 2048, k)`        (`x` with its two leading axes merged, narrowed),
    the right operand  `Wt (k, o) = W (o, k) + 4 · ∑ r, B (o, r) · A (r, k)`  (the merged weight, transposed, narrowed),
    the bias row       `β (0, o)  = bias o`.

  On the extended reals a narrowing of the float format is the identity; merging axes keeps the row-major position
  (`(a / 2048) · 2048 + a % 2048 = a`); a transpose swaps the two coordinates; the small product `B · A` read at an
  entry is the sum over its eight contracted positions.
-/
import proofs.«163915_j39934605918289_1_alg».proof.Proof.Gen.KernelIdeal.Frame
import proofs.«163915_j39934605918289_1_alg».proof.Proof.Spec
import proofs.«163915_j39934605918289_1_alg».proof.Proof.LibPlainProduct
import Idealize.ShloMosaic.Lib.Pipeline.Value
import Idealize.ShloMosaic.Lib.ValueIdx
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx

namespace Cert.KernelIdeal.Entry

open Cert.KernelIdeal Cert.KernelIdeal.Gen Idealize.ShloMosaic.StableHlo

variable (m : (ℓ : Loc nD τ sig) → Buf (Elt Ideal) ℓ)

/-- The five argument arrays on core `c`, as launched. -/
abbrev argX (c : Dev nD) : FVec Ideal S4x2048x4096 .f32 := m ((c : Thread nD τ).loc main_arg0)
abbrev argW (c : Dev nD) : FVec Ideal S4096x4096 .f32 := m ((c : Thread nD τ).loc main_arg1)
abbrev argA (c : Dev nD) : FVec Ideal S8x4096 .f32 := m ((c : Thread nD τ).loc main_arg2)
abbrev argB (c : Dev nD) : FVec Ideal S4096x8 .f32 := m ((c : Thread nD τ).loc main_arg3)
abbrev argBias (c : Dev nD) : FVec Ideal S4096 .f32 := m ((c : Thread nD τ).loc main_arg4)

/-- The three staged arrays as the region finds them. -/
abbrev lhs (c : Dev nD) : FVec Ideal S8192x4096 .bf16 := V m c main_v7
abbrev rhs (c : Dev nD) : FVec Ideal S4096x4096 .bf16 := V m c main_v5
abbrev biasRow (c : Dev nD) : FVec Ideal S1x4096 .f32 := V m c main_v8

/-- The left operand at `(a, k)` is `x` at `(a / 2048, a % 2048, k)`. -/
theorem lhs_apply (c : Dev nD) (a : Fin 8192) (k : Fin 4096) :
    lhs m c (ix2 a k) = argX m c (ix3 (⟨a.val / 2048, by have := a.isLt; omega⟩ : Fin 4)
      (⟨a.val % 2048, by omega⟩ : Fin 2048) k) := by
  have e : lhs m c = truncf .bf16 (shapeCast S8192x4096 (argX m c) shapeCasts_S4x2048x4096_S8192x4096) bitsLt_bf16_f32 := by
    show StableHlo.after hostOps0 (fun b => m (c, b)) (Proc.devRef .tc main_v7) = _
    after_results <;> rfl
  rw [e]
  show shapeCast S8192x4096 (argX m c) shapeCasts_S4x2048x4096_S8192x4096 (ix2 a k) = _
  refine shapeCast_apply _ _ _ _ ?_
  rw [Shape.rowMajor_val_three, Shape.rowMajor_val_two]
  show ((a.val / 2048) * 2048 + a.val % 2048) * 4096 + k.val = a.val * 4096 + k.val
  omega

/-- The right operand at `(k, o)` is the merged weight at `(o, k)`. -/
theorem rhs_apply (c : Dev nD) (k o : Fin 4096) :
    rhs m c (ix2 k o) = Cert.LoraSpec.weff (argW m c) (argA m c) (argB m c) o k := by
  have e : rhs m c = truncf .bf16 (transpose S4096x4096 [1, 0]
      (addf (argW m c) (mulf (broadcastInDim S4096x4096 ![] bcast_S_S4096x4096 (constant (F := Ideal) S_ .f32 0x40800000#32))
        (Host.dotGeneral (F := Ideal) dot_S4096x8_S8x4096_S4096x4096_1_0_0_1_n_n none (argB m c) (argA m c))))
      transposes_S4096x4096_S4096x4096_1_0) bitsLt_bf16_f32 := by
    show StableHlo.after hostOps0 (fun b => m (c, b)) (Proc.devRef .tc main_v5) = _
    after_results <;> rfl
  rw [e]
  rw [truncf_apply]
  refine (transpose_apply [1, 0] _ transposes_S4096x4096_S4096x4096_1_0 (ix2 k o) (ix2 o k) (fun b => by
    match b with
    | ⟨0, _⟩ => rfl
    | ⟨1, _⟩ => rfl)).trans ?_
  have hb : broadcastInDim S4096x4096 ![] bcast_S_S4096x4096 (constant (F := Ideal) S_ .f32 0x40800000#32) (ix2 o k)
      = Cert.LoraSpec.scale :=
    broadcastInDim_apply _ bcast_S_S4096x4096 _ (ix2 o k) ix0 (fun a => a.elim0)
  have hd : Host.dotGeneral (F := Ideal) dot_S4096x8_S8x4096_S4096x4096_1_0_0_1_n_n none (argB m c) (argA m c) (ix2 o k)
      = ∑ r : Fin 8, argB m c (ix2 o r) * argA m c (ix2 r k) := by
    simp only [Host.dotGeneral]
    exact Cert.LibPlainProduct.dotGeneral_plain_apply (M := 4096) (K := 8) (N := 4096) (argB m c) (argA m c) none _ o k
  unfold Cert.LoraSpec.weff
  show argW m c (ix2 o k) + _ * _ = _
  rw [hb, hd]

/-- The bias row at `(0, o)` is `bias o`. -/
theorem biasRow_apply (c : Dev nD) (o : Fin 4096) :
    biasRow m c (ix2 (0 : Fin 1) o) = argBias m c (ix1 o) := by
  have e : biasRow m c = shapeCast S1x4096 (argBias m c) shapeCasts_S4096_S1x4096 := by
    show StableHlo.after hostOps0 (fun b => m (c, b)) (Proc.devRef .tc main_v8) = _
    after_results <;> rfl
  rw [e]
  refine shapeCast_apply _ _ _ _ ?_
  rw [Shape.rowMajor_val_one, Shape.rowMajor_val_two]
  show o.val = 0 * 4096 + o.val
  omega

end Cert.KernelIdeal.Entry

end
-- ==== Proof.Acc.lean ====
/-
  The accumulator across the grid: what the scratch and the output block hold after each grid point.

  The grid is `8 × 4 × 4`, visited in row-major order; point `t` has row tile `t / 4 / 4`, column tile `t / 4 % 4`
  and contraction tile `t % 4`. Four consecutive points `4 g, …, 4 g + 3` form a run that shares its row and column
  tile (`g = t / 4`). Writing `L` and `Wt` for the two operand arrays as the region finds them,

      term g s (p, q) = ∑ kk, L (1024 · (g / 4) + p, 1024 · s + kk) · Wt (1024 · s + kk, 1024 · (g % 4) + q)

  is the product of the run's `s`-th pair of blocks at `(p, q)`. The invariant: after point `t` the scratch holds

      ∑ s ∈ {0, …, t % 4}, term (t / 4) s

  — at a run's first point the reset zero plus the first term, at each later point what the point before left plus
  the next term. At a run's last point the output block is the whole four-term sum plus the bias row's entry of the
  block's column. Blocks are read off their arrays at `tile · 1024 + offset`; the tile numbers are the printed index
  maps, decided once over the grid's 128 points.
-/
import proofs.«163915_j39934605918289_1_alg».proof.Proof.Gen.KernelIdeal.Frame
import proofs.«163915_j39934605918289_1_alg».proof.Proof.Pieces
import proofs.«163915_j39934605918289_1_alg».proof.Proof.Step
import proofs.«163915_j39934605918289_1_alg».proof.Proof.LibNatRead
import proofs.«163915_j39934605918289_1_alg».proof.Proof.Entry
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx NatRead

namespace Cert.KernelIdeal.Acc

open Cert.KernelIdeal Cert.KernelIdeal.Gen Cert.KernelIdeal.Entry

variable (m : (ℓ : Loc nD τ sig) → Buf (Elt Ideal) ℓ)

/-- The three input blocks of grid point `t`. -/
abbrev xblk (c : Dev nD) (t : Fin cfg0.N) : FVec Ideal S1024x1024 .bf16 := iblk m c 0 t
abbrev wblk (c : Dev nD) (t : Fin cfg0.N) : FVec Ideal S1024x1024 .bf16 := iblk m c 1 t
abbrev bblk (c : Dev nD) (t : Fin cfg0.N) : FVec Ideal S1x1024 .f32 := iblk m c 2 t

/-- The printed index maps over the grid: row tile, column tile and contraction tile of point `t`. -/
theorem tiles : ∀ t : Fin cfg0.N,
    win0_0.index t (0 : Fin 2) = t.val / 4 / 4 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 4 / 4 ∧ win0_3.index t (1 : Fin 2) = t.val / 4 % 4 :=
  (by decide +kernel : ∀ t : Fin grid0.N, _)

theorem lt_N (t : Fin cfg0.N) : t.val < 128 := lt_of_lt_of_eq t.isLt (show cfg0.N = 128 from N_0)

/-- The left block of point `t` at `(p, kk)`. -/
theorem xblk_apply (c : Dev nD) (t : Fin cfg0.N) (p kk : Fin 1024) :
    xblk m c t (ix2 p kk) = at2 (lhs m c) (1024 * (t.val / 4 / 4) + p.val) (1024 * (t.val % 4) + kk.val) := by
  have hN := lt_N t
  obtain ⟨e0, e1, -⟩ := tiles t
  rw [at2_of_lt _ (by omega) (by omega)]
  unfold xblk iblk
  rw [View.read_apply]
  show V m c main_v7 _ = V m c main_v7 _
  congr 1
  funext a; apply Fin.ext
  match a with
  | ⟨0, _⟩ => show win0_0.index t (0 : Fin 2) * 1024 + 1 * p.val = 1024 * (t.val / 4 / 4) + p.val; rw [e0]; omega
  | ⟨1, _⟩ => show win0_0.index t (1 : Fin 2) * 1024 + 1 * kk.val = 1024 * (t.val % 4) + kk.val; rw [e1]; omega

/-- The right block of point `t` at `(kk, q)`. -/
theorem wblk_apply (c : Dev nD) (t : Fin cfg0.N) (kk q : Fin 1024) :
    wblk m c t (ix2 kk q) = at2 (rhs m c) (1024 * (t.val % 4) + kk.val) (1024 * (t.val / 4 % 4) + q.val) := by
  have hN := lt_N t
  obtain ⟨-, -, e0, e1, -⟩ := tiles t
  rw [at2_of_lt _ (by omega) (by omega)]
  unfold wblk iblk
  rw [View.read_apply]
  show V m c main_v5 _ = V m c main_v5 _
  congr 1
  funext a; apply Fin.ext
  match a with
  | ⟨0, _⟩ => show win0_1.index t (0 : Fin 2) * 1024 + 1 * kk.val = 1024 * (t.val % 4) + kk.val; rw [e0]; omega
  | ⟨1, _⟩ => show win0_1.index t (1 : Fin 2) * 1024 + 1 * q.val = 1024 * (t.val / 4 % 4) + q.val; rw [e1]; omega

/-- The bias block of point `t` at `(0, q)`. -/
theorem bblk_apply (c : Dev nD) (t : Fin cfg0.N) (q : Fin 1024) :
    bblk m c t (ix2 (0 : Fin 1) q) = at2 (biasRow m c) 0 (1024 * (t.val / 4 % 4) + q.val) := by
  have hN := lt_N t
  obtain ⟨-, -, -, -, e0, e1, -⟩ := tiles t
  rw [at2_of_lt _ (by omega) (by omega)]
  unfold bblk iblk
  rw [View.read_apply]
  show V m c main_v8 _ = V m c main_v8 _
  congr 1
  funext a; apply Fin.ext
  match a with
  | ⟨0, _⟩ => show win0_2.index t (0 : Fin 2) * 1 + 1 * 0 = 0; rw [e0]
  | ⟨1, _⟩ => show win0_2.index t (1 : Fin 2) * 1024 + 1 * q.val = 1024 * (t.val / 4 % 4) + q.val; rw [e1]; omega

/-- The product of the `s`-th pair of blocks of run `g`, at `(p, q)`. -/
def term (c : Dev nD) (g s : ℕ) (p q : Fin 1024) : EReal :=
  ∑ kk : Fin 1024, at2 (lhs m c) (1024 * (g / 4) + p.val) (1024 * s + kk.val)
    * at2 (rhs m c) (1024 * s + kk.val) (1024 * (g % 4) + q.val)

/-- The product of point `t`'s two blocks is its run's term number `t % 4`. -/
theorem block_term (c : Dev nD) (t : Fin cfg0.N) (p q : Fin 1024) :
    ∑ kk : Fin 1024, xblk m c t (ix2 p kk) * wblk m c t (ix2 kk q) = term m c (t.val / 4) (t.val % 4) p q := by
  unfold term
  exact Finset.sum_congr rfl fun kk _ => by rw [xblk_apply, wblk_apply]

/-- A run's first point: the scratch holds the first term. -/
theorem first_point (c : Dev nD) (t : Fin cfg0.N) (h0 : t.val % 4 = 0) (p q : Fin 1024) :
    (outsAt0 m c t.val t.isLt).2 (ix2 p q) = ∑ s ∈ Finset.range (t.val % 4 + 1), term m c (t.val / 4) s p q := by
  have h1 : ¬t.val % 4 = 3 := by omega
  rw [outsAt0_A m c t h0 h1]
  dsimp only
  refine (congrFun (Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0)
    (fun h => h1 ((hcond0_1 t).mp h)) (xblk m c t) (wblk m c t) (bblk m c t)) (ix2 p q)).trans ?_
  rw [Step.step_apply, Step.reset_apply, zero_add, block_term, h0, Finset.sum_range_succ, Finset.sum_range_zero, zero_add]

/-- A later point of a run: what the point before left, plus this point's term. -/
theorem later_point (c : Dev nD) (t : Fin cfg0.N) (h0 : ¬t.val % 4 = 0) (p q : Fin 1024)
    (ih : (outsAt0 m c (t.val - 1) (Nat.lt_of_le_of_lt (Nat.sub_le _ _) t.isLt)).2 (ix2 p q)
      = ∑ s ∈ Finset.range ((t.val - 1) % 4 + 1), term m c ((t.val - 1) / 4) s p q) :
    (outsAt0 m c t.val t.isLt).2 (ix2 p q) = ∑ s ∈ Finset.range (t.val % 4 + 1), term m c (t.val / 4) s p q := by
  have e1 : (t.val - 1) % 4 + 1 = t.val % 4 := by omega
  have e2 : (t.val - 1) / 4 = t.val / 4 := by omega
  rw [e1, e2] at ih
  by_cases h1 : t.val % 4 = 3
  · rw [outsAt0_C m c t h0 h1]
    dsimp only
    refine (congrFun (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
      ((hcond0_1 t).mpr h1) (xblk m c t) (wblk m c t) (bblk m c t)
      (outsAt0 m c (t.val - 1) (Nat.lt_of_le_of_lt (Nat.sub_le _ _) t.isLt)).2) (ix2 p q)).trans ?_
    rw [Step.step_apply, ih, block_term, Finset.sum_range_succ]
  · rw [outsAt0_B m c t h0 h1]
    dsimp only
    refine (congrFun (Pieces.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
      (fun h => h1 ((hcond0_1 t).mp h)) (xblk m c t) (wblk m c t) (bblk m c t)
      (outsAt0 m c (t.val - 1) (Nat.lt_of_le_of_lt (Nat.sub_le _ _) t.isLt)).2) (ix2 p q)).trans ?_
    rw [Step.step_apply, ih, block_term, Finset.sum_range_succ]

/-- THE INVARIANT: after point `n` the scratch holds the sum of its run's terms up to its own. -/
theorem scratch_eq (c : Dev nD) : ∀ (n : ℕ) (hn : n < cfg0.N) (p q : Fin 1024),
    (outsAt0 m c n hn).2 (ix2 p q) = ∑ s ∈ Finset.range (n % 4 + 1), term m c (n / 4) s p q
  | 0, hn, p, q => first_point m c ⟨0, hn⟩ rfl p q
  | n + 1, hn, p, q => by
    by_cases h0 : (n + 1) % 4 = 0
    · exact first_point m c ⟨n + 1, hn⟩ h0 p q
    · exact later_point m c ⟨n + 1, hn⟩ h0 p q (scratch_eq c n (Nat.lt_of_succ_lt hn) p q)

/-- A run's last point: the output block is the four-term sum plus the bias row. -/
theorem out_eq (c : Dev nD) (t : Fin cfg0.N) (h1 : t.val % 4 = 3) (p q : Fin 1024) :
    (outsAt0 m c t.val t.isLt).1 (ix2 p q)
      = (∑ s ∈ Finset.range 4, term m c (t.val / 4) s p q) + at2 (biasRow m c) 0 (1024 * (t.val / 4 % 4) + q.val) := by
  have h0 : ¬t.val % 4 = 0 := by omega
  have e1 : (t.val - 1) % 4 + 1 = 3 := by omega
  have e2 : (t.val - 1) / 4 = t.val / 4 := by omega
  have ih := scratch_eq m c (t.val - 1) (Nat.lt_of_le_of_lt (Nat.sub_le _ _) t.isLt) p q
  rw [e1, e2] at ih
  rw [outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
    ((hcond0_1 t).mpr h1) (xblk m c t) (wblk m c t) (bblk m c t)
    (outsAt0 m c (t.val - 1) (Nat.lt_of_le_of_lt (Nat.sub_le _ _) t.isLt)).2) (ix2 p q)).trans ?_
  rw [Step.epilogue_apply, Step.step_apply, ih, block_term, bblk_apply, h1, Finset.sum_range_succ _ 3]

end Cert.KernelIdeal.Acc

end
-- ==== Proof.LibBlockSum.lean ====
/-
  A sum over a long index range cut into consecutive blocks of equal length: in a commutative monoid (the extended reals'
  addition is one) the sum over `a · b` positions is the sum, block by block, of the sums inside each block of length
  `b`; position `b · s + x` is position `x` of block `s`. Stated for functions on the naturals (no bound travels with
  the position), and for functions on `Fin (a · b)`.
-/
import Mathlib.Algebra.BigOperators.Fin
import Mathlib.Algebra.BigOperators.Intervals

open scoped BigOperators

namespace BlockSum

variable {M : Type*} [AddCommMonoid M]

/-- The first `a · b` terms are `a` consecutive blocks of `b` terms. -/
theorem sum_range_mul (f : ℕ → M) (a b : ℕ) :
    ∑ i ∈ Finset.range (a * b), f i = ∑ s ∈ Finset.range a, ∑ x ∈ Finset.range b, f (b * s + x) := by
  induction a with
  | zero => simp
  | succ a ih =>
    rw [Nat.succ_mul, Finset.sum_range_add, ih, Finset.sum_range_succ, Nat.mul_comm a b]

/-- The same over the finite index types: a sum over `Fin (a · b)` of a function of the position's value. -/
theorem sum_fin_mul (f : ℕ → M) (a b : ℕ) :
    ∑ i : Fin (a * b), f i.val = ∑ s ∈ Finset.range a, ∑ x : Fin b, f (b * s + x.val) := by
  rw [Fin.sum_univ_eq_sum_range (fun i => f i) (a * b), sum_range_mul]
  refine Finset.sum_congr rfl fun s _ => ?_
  rw [← Fin.sum_univ_eq_sum_range (fun x => f (b * s + x)) b]

end BlockSum
-- ==== Proof.Final.lean ====
/-
  The kernel program's result array is the specification.

  The pipeline writes its output block back at the last point of every run of four. With `L`, `Wt`, `β` the three
  staged arrays as the region finds them, every written block is the block of ONE function of the whole array,

      product (a, o) = (∑ s < 4, ∑ kk < 1024, L (a, 1024 s + kk) · Wt (1024 s + kk, o)) + β (0, o),

  and the 32 written blocks (row tile `a / 1024`, column tile `o / 1024`) tile the `8192 × 4096` array, so the array
  ends holding `product`. The program's last operation splits the row axis back into `(b, s)` with `a = 2048 b + s`.
  Four consecutive blocks of 1024 contraction positions are the whole range of 4096; `L (2048 b + s, k)` is
  `x (b, s, k)`, `Wt (k, o)` is the merged weight at `(o, k)`, `β (0, o)` is `bias o`: the result is the
  specification's `out` at `(b, s, o)`.
-/
import proofs.«163915_j39934605918289_1_alg».proof.Proof.Acc
import proofs.«163915_j39934605918289_1_alg».proof.Proof.LibBlockSum
import proofs.«163915_j39934605918289_1_alg».proof.Proof.Spec
import Idealize.ShloMosaic.Lib.Pipeline.Value
import Idealize.ShloMosaic.Lib.ValueIdx
import Idealize.ShloMosaic.Lib.StableHlo.Run

noncomputable section

open scoped BigOperators
open Idealize.ShloMosaic Idealize.ShloMosaic.TcCoe Idealize.SL.Sem Idealize.ShloMosaic.ValueIdx NatRead
open Idealize.ShloMosaic.Pipeline (Dat)

namespace Cert.KernelIdeal.Final

open Cert.KernelIdeal Cert.KernelIdeal.Gen Cert.KernelIdeal.Entry Cert.KernelIdeal.Acc Idealize.ShloMosaic.StableHlo

variable (m : (ℓ : Loc nD τ sig) → Buf (Elt Ideal) ℓ) (ρ : Dev nD → PrngReg)

/-- The pipeline's result array, entry by entry: the K-blocked product plus the bias row. -/
def product (c : Dev nD) : FVec Ideal S8192x4096 .f32 := fun i =>
  (∑ s ∈ Finset.range 4, ∑ kk : Fin 1024,
      at2 (lhs m c) (i 0).val (1024 * s + kk.val) * at2 (rhs m c) (1024 * s + kk.val) (i 1).val)
    + at2 (biasRow m c) 0 (i 1).val

/-- The output block at a run's last point, at any index of the block. -/
theorem out_block (c : Dev nD) (t : Fin cfg0.N) (h1 : t.val % 4 = 3) (y : S1024x1024.Idx) :
    (outsAt0 m c t.val t.isLt).1 y
      = (∑ s ∈ Finset.range 4, term m c (t.val / 4) s (y 0) (y 1))
          + at2 (biasRow m c) 0 (1024 * (t.val / 4 % 4) + (y 1).val) :=
  (congrArg (outsAt0 m c t.val t.isLt).1 (eq_ix2 y)).trans (out_eq m c t h1 (y 0) (y 1))

/-- What a writing point writes back is its block of `product`. -/
theorem flushed_eq (c : Dev nD) (t : Fin cfg0.N) (hf : (cfg0.win 3).flush t = true) :
    (dats m 0 c).flushed 3 t = ((cfg0.win 3).blk t).view.read (Elt Ideal) (product m c) := by
  have h1 : t.val % 4 = 3 := (flush0_3 t).mp hf
  have hN := lt_N t
  obtain ⟨-, -, -, -, -, -, e0, e1⟩ := tiles t
  show (cfg0.win 3).cut (grid0.coords t) ((dats m 0 c).after 3 t) = _
  rw [after0_3]
  funext y
  rw [View.read_apply]
  refine (out_block m c t h1 y).trans ?_
  have c0 : ((((cfg0.win 3).blk t).view.emb y) 0).val = 1024 * (t.val / 4 / 4) + (y 0).val := by
    show win0_3.index t (0 : Fin 2) * 1024 + 1 * (y 0).val = _; rw [e0]; omega
  have c1 : ((((cfg0.win 3).blk t).view.emb y) 1).val = 1024 * (t.val / 4 % 4) + (y 1).val := by
    show win0_3.index t (1 : Fin 2) * 1024 + 1 * (y 1).val = _; rw [e1]; omega
  unfold product term
  rw [c0, c1]
  exact (cast_eq _ _).symm

/-- An index is in point `t`'s output block iff each coordinate is in the block's range. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v9).slice (win0_3.rect t)).set ↔ _
  rw [View.set_slice_whole, Rect.mem_set_unit]
  exact Iff.rfl

/-- Every index of the array is in the block of some writing point: the last point of the run of its two tiles. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, e0, e1⟩ := tiles t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 1024 ≤ (i 1).val ∧ (i 1).val < win0_3.index t (1 : Fin 2) * 1024 + 1024
    rw [e1]; omega

/-- So the output array ends holding `product`. -/
theorem final (c : Dev nD) : (dats m 0 c).arrAt 3 cfg0.N = product m c :=
  (dats m 0 c).arrAt_eq_of_cover 3 (product m c) (flushed_eq m c) cover

/-- The program's result: the output array with its row axis split in two. -/
theorem result_eq (c : Dev nD) :
    Pipeline.afterTail₀ cfgs (dats m) 0 (V0 m) [hostOps1] c main_v10
      = shapeCast S4x2048x4096 (product m c) shapeCasts_S8192x4096_S4x2048x4096 := by
  unfold Pipeline.afterTail₀
  show StableHlo.after hostOps1 _ (Proc.devRef .tc main_v10) = _
  after_results
  have e : Pipeline.withArrays (cfgs 0).spec c (V0 m c) (fun w => (dats m 0 c).arrAt w (cfgs 0).N)
      (Proc.devRef .tc main_v9) = product m c :=
    (Pipeline.withArrays_arr spec0 launch0.win.arr_inj c _ _ 3).trans (final m c)
  rw [e]
  rfl

/-- Row `2048 b + s` of the left operand is row `(b, s)` of `x`. -/
theorem lhs_row (c : Dev nD) (b : Fin 4) (s : Fin 2048) (k : Fin 4096) :
    at2 (lhs m c) (2048 * b.val + s.val) k.val = argX m c (ix3 b s k) := by
  have hb := b.isLt
  have hs := s.isLt
  rw [at2_of_lt _ (by omega) k.isLt, lhs_apply]
  refine congrArg (argX m c) (funext fun a => ?_)
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

/-- Column `o` of the right operand is row `o` of the merged weight. -/
theorem rhs_col (c : Dev nD) (k o : Fin 4096) :
    at2 (rhs m c) k.val o.val = Cert.LoraSpec.weff (argW m c) (argA m c) (argB m c) o k := by
  rw [at2_fin, rhs_apply]

/-- The bias row at column `o` is `bias o`. -/
theorem bias_col (c : Dev nD) (o : Fin 4096) : at2 (biasRow m c) 0 o.val = argBias m c (ix1 o) := by
  rw [at2_of_lt _ Nat.one_pos o.isLt]
  exact biasRow_apply m c o

/-- The result array with its row axis split is the specification of the five arguments. -/
theorem product_eq_out (c : Dev nD) :
    shapeCast S4x2048x4096 (product m c) shapeCasts_S8192x4096_S4x2048x4096
      = Cert.LoraSpec.out (argX m c) (argW m c) (argA m c) (argB m c) (argBias m c) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  refine (shapeCast_apply (product m c) shapeCasts_S8192x4096_S4x2048x4096 (ix3 b s o)
    (ix2 (⟨2048 * b.val + s.val, by omega⟩ : Fin 8192) o) ?_).trans ?_
  · rw [Shape.rowMajor_val_two, Shape.rowMajor_val_three]
    show (2048 * b.val + s.val) * 4096 + o.val = (b.val * 2048 + s.val) * 4096 + o.val
    omega
  · have hsum : ∑ k : Fin 4096, at2 (lhs m c) (2048 * b.val + s.val) k.val * at2 (rhs m c) k.val o.val
        = ∑ s' ∈ Finset.range 4, ∑ kk : Fin 1024,
            at2 (lhs m c) (2048 * b.val + s.val) (1024 * s' + kk.val) * at2 (rhs m c) (1024 * s' + kk.val) o.val :=
      BlockSum.sum_fin_mul (fun k => at2 (lhs m c) (2048 * b.val + s.val) k * at2 (rhs m c) k o.val) 4 1024
    show (∑ s' ∈ Finset.range 4, ∑ kk : Fin 1024,
        at2 (lhs m c) (2048 * b.val + s.val) (1024 * s' + kk.val) * at2 (rhs m c) (1024 * s' + kk.val) o.val)
        + at2 (biasRow m c) 0 o.val
      = (∑ k : Fin 4096, argX m c (ix3 b s k) * Cert.LoraSpec.weff (argW m c) (argA m c) (argB m c) o k)
        + argBias m c (ix1 o)
    rw [← hsum, bias_col]
    exact congrArg (· + argBias m c (ix1 o)) (Finset.sum_congr rfl fun k _ => by rw [lhs_row, rhs_col])

/-- THE RUN, READ: every weakly fair execution of the kernel program ends with its result at the specification of
    the five arguments, and the arguments unchanged. -/
theorem run : θ_run defs (onTc (τ := τ) (main (F := Ideal))) ⟨m, fun _ => 0, ρ⟩ fun r => ∀ c : Dev nD,
      r.2.mem ((c.tc : Thread nD τ).loc main_v10)
        = Cert.LoraSpec.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v10 (Pipeline.mem_restRefs_of main_v10 (by decide) (by decide))).trans
        ((result_eq m c).trans (product_eq_out m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.LibLoraLaw.lean ====
/-
  The algebraic law that joins a merged low-rank update to its factored form.

  For finitely many real numbers `x k`, `w k`, `a r k`, `b r` and reals `β`, `c`:

      (∑ k, x k · (w k + c · ∑ r, b r · a r k)) + β  =  ((∑ k, x k · w k) + β) + c · ∑ r, (∑ k, x k · a r k) · b r.

  On the left the rank-`R` correction `c · b · a` is folded into the weight row before the long contraction over `k`;
  on the right the contraction is done twice, once against the weight row and once against each row of `a`, and the
  short contraction over `r` comes last. The identity is distributivity of `·` over `+` and an exchange of the two
  finite sums, so it holds in the reals; it is stated here on the extended reals for coerced real numbers, where both
  sides are coercions of the two real expressions. (It fails for infinite entries: `x · (w + u)` and `x · w + x · u`
  differ when `w = ⊤` and `u = ⊥`.) Also here: coercion commutes with finite sums.
-/
import Mathlib.Data.EReal.Operations
import Mathlib.Algebra.BigOperators.Ring.Finset
import Mathlib.Algebra.BigOperators.Group.Finset.Sigma
import Mathlib.Tactic.Ring

open scoped BigOperators

namespace LoraLaw

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {K R : Type*} [Fintype K] [Fintype R]

/-- The law in the reals. -/
theorem merged_real (x w : K → ℝ) (a : R → K → ℝ) (b : R → ℝ) (β c : ℝ) :
    (∑ k, x k * (w k + c * ∑ r, b r * a r k)) + β
      = ((∑ k, x k * w k) + β) + c * ∑ r, (∑ k, x k * a r k) * b r := by
  have e : ∑ k, x k * (c * ∑ r, b r * a r k) = c * ∑ r, (∑ k, x k * a r k) * b r := by
    simp only [Finset.mul_sum, Finset.sum_mul]
    rw [Finset.sum_comm]
    exact Finset.sum_congr rfl fun r _ => Finset.sum_congr rfl fun k _ => by ring
  simp only [mul_add, Finset.sum_add_distrib, e]
  ring

/-- The law on the extended reals, for finite entries. -/
theorem merged_ereal (x w : K → ℝ) (a : R → K → ℝ) (b : R → ℝ) (β c : ℝ) :
    (∑ k, (x k : EReal) * ((w k : EReal) + (c : EReal) * ∑ r, (b r : EReal) * (a r k : EReal))) + (β : EReal)
      = ((∑ k, (x k : EReal) * (w k : EReal)) + (β : EReal))
          + (c : EReal) * ∑ r, (∑ k, (x k : EReal) * (a r k : EReal)) * (b r : EReal) := by
  simp only [← EReal.coe_mul, ← coe_sum, ← EReal.coe_add]
  exact congrArg _ (merged_real x w a b β c)

end LoraLaw
-- ==== Proof.Consts.lean ====
/-
  The one float constant both programs spell: the pattern `0x40800000` of the scale `alpha / r = 32 / 8` denotes the
  real number `4` on the extended reals (sign `+`, exponent field `129`, zero fraction: `2 ^ (129 - 127) = 4`).
-/
import Idealize.ShloMosaic.PureOps.Ideal

noncomputable section

namespace Cert.Consts

open Idealize.ShloMosaic

/-- `4.0` denotes the real `4`. -/
theorem ofBits_four : Ideal.ofBits .f32 0x40800000#32 = ((4 : ℝ) : EReal) := by
  simp [Ideal.ofBits, Ideal.ieee, -EReal.coe_mul]; norm_num

end Cert.Consts

end
-- ==== Proof.RefSide.lean ====
/-
  The reference program computes the specification.

  Read at the output index `(b, s, o)`, the reference's value is the factored form

      ((∑ k, x (b, s, k) · W (o, k)) + bias o) + 4 · ∑ r, (∑ k, x (b, s, k) · A (r, k)) · B (o, r):

  a long contraction against the weight, the bias broadcast along the two leading axes, and the rank-8 correction
  contracted twice and scaled. The specification is the merged form `(∑ k, x (b, s, k) · weff o k) + bias o` with
  `weff o k = W (o, k) + 4 · ∑ r, B (o, r) · A (r, k)`. When every entry of every input is a real number the two are equal
  by distributivity and an exchange of the two finite sums (`LoraLaw.merged_ereal`); the scale pattern denotes `4` on
  both sides (`Cert.Consts.ofBits_four`). First the index maps of the generated per-operation lemmas are identified with
  indices built from the coordinates; then each side is read at `(b, s, o)`; then the law joins them.
-/
import proofs.«163915_j39934605918289_1_alg».proof.Proof.Gen.ReferenceIdeal.Read
import proofs.«163915_j39934605918289_1_alg».proof.Proof.Spec
import proofs.«163915_j39934605918289_1_alg».proof.Proof.LibLoraLaw
import proofs.«163915_j39934605918289_1_alg».proof.Proof.Consts

noncomputable section

open scoped BigOperators

namespace Cert.ReferenceIdeal.RefValue

open Cert.ReferenceIdeal Cert.ReferenceIdeal.Read Idealize.ShloMosaic Idealize.ShloMosaic.ValueIdx

/-! ## The index maps of the per-operation lemmas, by coordinates -/

/-- Left operand of `x · Wᵀ` at output `(b, s, o)`, contraction position `k`: `x (b, s, k)`. -/
theorem lidx_v0 (b : Fin 4) (s : Fin 2048) (o k : Fin 4096) : lidx_main_v0 (ix3 b s o) k = ix3 b s k :=
  funext fun a => Fin.ext (by match a with | ⟨0, _⟩ => rfl | ⟨1, _⟩ => rfl | ⟨2, _⟩ => rfl)

/-- Right operand of `x · Wᵀ` at output `(b, s, o)`, contraction position `k`: `W (o, k)`. -/
theorem ridx_v0 (b : Fin 4) (s : Fin 2048) (o k : Fin 4096) : ridx_main_v0 (ix3 b s o) k = ix2 o k :=
  funext fun a => Fin.ext (by match a with | ⟨0, _⟩ => rfl | ⟨1, _⟩ => rfl)

/-- The bias, broadcast twice, is read at `o`. -/
theorem idx_v1_v2 (b : Fin 4) (s : Fin 2048) (o : Fin 4096) : idx_main_v1 (idx_main_v2 (ix3 b s o)) = ix1 o :=
  funext fun a => Fin.ext (by match a with | ⟨0, _⟩ => rfl)

/-- Left operand of `(x · Aᵀ) · Bᵀ` at output `(b, s, o)`, contraction position `r`: `(x · Aᵀ) (b, s, r)`. -/
theorem lidx_v5 (b : Fin 4) (s : Fin 2048) (o : Fin 4096) (r : Fin 8) : lidx_main_v5 (ix3 b s o) r = ix3 b s r :=
  funext fun a => Fin.ext (by match a with | ⟨0, _⟩ => rfl | ⟨1, _⟩ => rfl | ⟨2, _⟩ => rfl)

/-- Right operand of `(x · Aᵀ) · Bᵀ` at output `(b, s, o)`, contraction position `r`: `B (o, r)`. -/
theorem ridx_v5 (b : Fin 4) (s : Fin 2048) (o : Fin 4096) (r : Fin 8) : ridx_main_v5 (ix3 b s o) r = ix2 o r :=
  funext fun a => Fin.ext (by match a with | ⟨0, _⟩ => rfl | ⟨1, _⟩ => rfl)

/-- Left operand of `x · Aᵀ` at output `(b, s, r)`, contraction position `k`: `x (b, s, k)`. -/
theorem lidx_v4 (b : Fin 4) (s : Fin 2048) (r : Fin 8) (k : Fin 4096) : lidx_main_v4 (ix3 b s r) k = ix3 b s k :=
  funext fun a => Fin.ext (by match a with | ⟨0, _⟩ => rfl | ⟨1, _⟩ => rfl | ⟨2, _⟩ => rfl)

/-- Right operand of `x · Aᵀ` at output `(b, s, r)`, contraction position `k`: `A (r, k)`. -/
theorem ridx_v4 (b : Fin 4) (s : Fin 2048) (r : Fin 8) (k : Fin 4096) : ridx_main_v4 (ix3 b s r) k = ix2 r k :=
  funext fun a => Fin.ext (by match a with | ⟨0, _⟩ => rfl | ⟨1, _⟩ => rfl)

/-! ## The two sides at `(b, s, o)` -/

/-- The low-rank branch `x · Aᵀ` at `(b, s, r)`. -/
theorem xa_at (x0 : (⟨S4x2048x4096, .f32⟩ : BufTy).Contents (Elt Ideal)) (x2 : (⟨S8x4096, .f32⟩ : BufTy).Contents (Elt Ideal))
    (b : Fin 4) (s : Fin 2048) (r : Fin 8) :
    val_main_v4 (F := Ideal) x0 x2 (ix3 b s r) = ∑ k : Fin 4096, x0 (ix3 b s k) * x2 (ix2 r k) := by
  rw [val_main_v4_apply]
  exact Finset.sum_congr rfl fun k _ => by rw [lidx_v4, ridx_v4]

/-- The reference at `(b, s, o)`: the factored form. -/
theorem ref_at (x0 : (⟨S4x2048x4096, .f32⟩ : BufTy).Contents (Elt Ideal)) (x1 : (⟨S4096x4096, .f32⟩ : BufTy).Contents (Elt Ideal))
    (x2 : (⟨S8x4096, .f32⟩ : BufTy).Contents (Elt Ideal)) (x3 : (⟨S4096x8, .f32⟩ : BufTy).Contents (Elt Ideal))
    (x4 : (⟨S4096, .f32⟩ : BufTy).Contents (Elt Ideal)) (b : Fin 4) (s : Fin 2048) (o : Fin 4096) :
    val_main_v8 (F := Ideal) x0 x1 x2 x3 x4 (ix3 b s o)
      = ((∑ k : Fin 4096, x0 (ix3 b s k) * x1 (ix2 o k)) + x4 (ix1 o))
          + Ideal.ofBits .f32 0x40800000#32
              * ∑ r : Fin 8, (∑ k : Fin 4096, x0 (ix3 b s k) * x2 (ix2 r k)) * x3 (ix2 o r) := by
  rw [val_main_v8_apply, val_main_v3_apply, val_main_v7_apply, val_main_v0_apply, val_main_v2_apply, val_main_v1_apply,
    val_main_v6_apply, val_main_cst_apply, val_main_v5_apply, idx_v1_v2]
  have e0 : (∑ k : Fin 4096, x0 (lidx_main_v0 (ix3 b s o) k) * x1 (ridx_main_v0 (ix3 b s o) k))
      = ∑ k : Fin 4096, x0 (ix3 b s k) * x1 (ix2 o k) :=
    Finset.sum_congr rfl fun k _ => by rw [lidx_v0, ridx_v0]
  have e5 : (∑ r : Fin 8, val_main_v4 (F := Ideal) x0 x2 (lidx_main_v5 (ix3 b s o) r) * x3 (ridx_main_v5 (ix3 b s o) r))
      = ∑ r : Fin 8, (∑ k : Fin 4096, x0 (ix3 b s k) * x2 (ix2 r k)) * x3 (ix2 o r) :=
    Finset.sum_congr rfl fun r _ => by rw [lidx_v5, ridx_v5, xa_at]
  rw [e0, e5]
  rfl

/-- The specification at `(b, s, o)`: the merged form, written out. -/
theorem out_at (x0 : (⟨S4x2048x4096, .f32⟩ : BufTy).Contents (Elt Ideal)) (x1 : (⟨S4096x4096, .f32⟩ : BufTy).Contents (Elt Ideal))
    (x2 : (⟨S8x4096, .f32⟩ : BufTy).Contents (Elt Ideal)) (x3 : (⟨S4096x8, .f32⟩ : BufTy).Contents (Elt Ideal))
    (x4 : (⟨S4096, .f32⟩ : BufTy).Contents (Elt Ideal)) (b : Fin 4) (s : Fin 2048) (o : Fin 4096) :
    Cert.LoraSpec.out x0 x1 x2 x3 x4 (ix3 b s o)
      = (∑ k : Fin 4096, x0 (ix3 b s k)
            * (x1 (ix2 o k) + Ideal.ofBits .f32 0x40800000#32 * ∑ r : Fin 8, x3 (ix2 o r) * x2 (ix2 r k)))
          + x4 (ix1 o) := rfl

/-! ## The law joins them -/

/-- On inputs whose entries are all real numbers, the reference's result is the specification's. -/
theorem ref_eq_out (x0 : (⟨S4x2048x4096, .f32⟩ : BufTy).Contents (Elt Ideal)) (x1 : (⟨S4096x4096, .f32⟩ : BufTy).Contents (Elt Ideal))
    (x2 : (⟨S8x4096, .f32⟩ : BufTy).Contents (Elt Ideal)) (x3 : (⟨S4096x8, .f32⟩ : BufTy).Contents (Elt Ideal))
    (x4 : (⟨S4096, .f32⟩ : BufTy).Contents (Elt Ideal))
    (h0 : Cert.LoraSpec.AllReal x0) (h1 : Cert.LoraSpec.AllReal x1) (h2 : Cert.LoraSpec.AllReal x2)
    (h3 : Cert.LoraSpec.AllReal x3) (h4 : Cert.LoraSpec.AllReal x4) :
    Cert.ReferenceIdeal.Read.val_main_v8 (F := Ideal) x0 x1 x2 x3 x4 = Cert.LoraSpec.out x0 x1 x2 x3 x4 := by
  funext i
  obtain ⟨b, s, o, rfl⟩ : ∃ b s o, i = ix3 b s o := ⟨i 0, i 1, i 2, eq_ix3 i⟩
  rw [ref_at, out_at, Cert.Consts.ofBits_four]
  choose xr hx using h0
  choose wr hw using h1
  choose ar ha using h2
  choose br hb using h3
  choose βr hβ using h4
  simp only [hx, hw, ha, hb, hβ]
  exact (LoraLaw.merged_ereal (fun k => xr (ix3 b s k)) (fun k => wr (ix2 o k)) (fun r k => ar (ix2 r k))
    (fun r => br (ix2 o r)) (βr (ix1 o)) 4).symm

end Cert.ReferenceIdeal.RefValue

end
-- ==== Proof.Finite.lean ====
/-
  Finite inputs are real numbers.

  The precondition evaluates, for each of the five input arrays, "every entry `v` has `|v| < +∞`", and joins the five
  verdicts by `and`; it is assumed to come out `1`. On the extended reals `|v| = max v (-v)`, and `max v (-v) < ⊤`
  fails at both `⊤` (where `v = ⊤`) and `⊥` (where `-v = ⊤`), so an entry that passes is (the coercion of) a real
  number. The proof splits the conjunction, reads each "for all" back into a statement at every index, and decides the
  entry fact by the three cases `⊥`, real, `⊤` of an extended real.
-/
import proofs.«163915_j39934605918289_1_alg».proof.Pre_finite_inputs
import proofs.«163915_j39934605918289_1_alg».proof.Proof.Gen.Pre_finite_inputs
import proofs.«163915_j39934605918289_1_alg».proof.Proof.Spec
import Idealize.ShloMosaic.Lib.ReduceAll

noncomputable section

namespace Cert.Pre_finite_inputs.Finite

open Idealize.ShloMosaic Cert.Pre_finite_inputs

/-- The result shape of a reduction over all axes has exactly one index. -/
instance : Subsingleton S_.Idx := ⟨fun a b => funext fun d => d.elim0⟩

/-- The pattern the precondition compares against denotes `+∞`. -/
theorem ofBits_inf : Ideal.ofBits .f32 0x7F800000#32 = (⊤ : EReal) := by
  simp [Ideal.ofBits, Ideal.ieee]

/-- An extended real whose absolute value `max v (-v)` is below `+∞` is a real number. -/
theorem real_of_abs_lt_top (v : EReal) (h : max v (-v) < ⊤) : ∃ r : ℝ, v = (r : EReal) := by
  induction v using EReal.rec with
  | bot => simp at h
  | coe r => exact ⟨r, rfl⟩
  | top => simp at h

/-- The entry test of the precondition, `|v| < +∞` evaluated to the bit `1`, makes `v` a real number. -/
theorem real_of_test (v : Ideal .f32)
    (h : FloatOps.cmpf .olt (FloatOps.hostAbsf v) (FloatOps.ofBits (F := Ideal) .f32 0x7F800000#32) = 1#1) :
    ∃ r : ℝ, v = (r : EReal) := by
  have h' : BitVec.ofBool (decide (max (v : EReal) (-(v : EReal)) < Ideal.ofBits .f32 0x7F800000#32)) = 1#1 := h
  rw [ofBits_inf] at h'
  refine real_of_abs_lt_top v ?_
  by_contra hn
  rw [decide_eq_false hn] at h'
  exact absurd h' (by decide)

/-- One conjunct read back: if "every entry of `x` has `|x| < +∞`", reduced by `and` over all axes, is `1`, then every
    entry of `x` is a real number. -/
theorem allReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32))) init hr hu j = 1#1) :
    Cert.LoraSpec.AllReal x := fun i =>
  real_of_test (x i) (Host.reduce_andi_all _ init hr hu j e i)

variable [Cert.Pre_finite_inputs.Facts]

/-- The precondition gives: every entry of every input is a real number. -/
theorem allReal_of_pre (x0 : FVec Ideal S4x2048x4096 .f32) (x1 : FVec Ideal S4096x4096 .f32) (x2 : FVec Ideal S8x4096 .f32)
    (x3 : FVec Ideal S4096x8 .f32) (x4 : FVec Ideal S4096 .f32)
    (h : Cert.Pre_finite_inputs.fn (F := Ideal) x0 x1 x2 x3 x4 = fun _ => 1#1) :
    Cert.LoraSpec.AllReal x0 ∧ Cert.LoraSpec.AllReal x1 ∧ Cert.LoraSpec.AllReal x2 ∧ Cert.LoraSpec.AllReal x3
      ∧ Cert.LoraSpec.AllReal x4 := by
  have e := congrFun h ValueIdx.ix0
  dsimp only [fn, fn_part1, andi] at e
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨allReal_of_all x0 _ _ _ _ _ e0, allReal_of_all x1 _ _ _ _ _ e1, allReal_of_all x2 _ _ _ _ _ e2,
    allReal_of_all x3 _ _ _ _ _ e3, allReal_of_all x4 _ _ _ _ _ e4⟩

end Cert.Pre_finite_inputs.Finite

end
-- ==== Proof.lean ====
/-
  A linear layer with a rank-8 update: `out = x · (W + 4 · B · A)ᵀ + bias` against `(x · Wᵀ + bias) + 4 · ((x · Aᵀ) · Bᵀ)`.

  The kernel program merges the low-rank update into the weight first (`W + 4 · B · A`, transposed and narrowed to
  bf16 beside the row-merged, narrowed `x`), multiplies in `1024³` tiles over an `8 × 4 × 4` grid with a scratch
  accumulator carried along the innermost (contraction) axis — zeroed at a run's first point, the bias row added and
  the block written back at its last — and splits the row axis again. The reference contracts `x` against `W` and
  against `A` separately and scales the rank-8 branch by `4` at the end.

  On the extended reals a change of float format is the identity, so the kernel program's result at `(b, s, o)` is
  `(∑ k, x (b, s, k) · (W (o, k) + 4 · ∑ r, B (o, r) · A (r, k))) + bias o` exactly (Proof/Final.lean, over the running
  sum of Proof/Acc.lean), and the reference's is the factored form (Proof/RefSide.lean). The two agree when every
  entry is a real number — distributivity and an exchange of two finite sums (Proof/LibLoraLaw.lean) — which is what the
  precondition provides (Proof/Finite.lean). The three frames are the generated runs; the idealization rewrote nothing.
-/
import proofs.«163915_j39934605918289_1_alg».proof.Defs
import proofs.«163915_j39934605918289_1_alg».proof.Proof.Gen.Kernel
import proofs.«163915_j39934605918289_1_alg».proof.Proof.Gen.Kernel.Skeleton
import proofs.«163915_j39934605918289_1_alg».proof.Proof.Gen.Kernel.Launch
import proofs.«163915_j39934605918289_1_alg».proof.Proof.Gen.Kernel.Points
import proofs.«163915_j39934605918289_1_alg».proof.Proof.Gen.Kernel.Frame
import proofs.«163915_j39934605918289_1_alg».proof.Proof.Gen.KernelIdeal
import proofs.«163915_j39934605918289_1_alg».proof.Proof.Gen.KernelIdeal.Skeleton
import proofs.«163915_j39934605918289_1_alg».proof.Proof.Gen.KernelIdeal.Launch
import proofs.«163915_j39934605918289_1_alg».proof.Proof.Gen.KernelIdeal.Points
import proofs.«163915_j39934605918289_1_alg».proof.Proof.Gen.KernelIdeal.Frame
import proofs.«163915_j39934605918289_1_alg».proof.Proof.Gen.ReferenceIdeal
import proofs.«163915_j39934605918289_1_alg».proof.Proof.Gen.ReferenceIdeal.Run
import proofs.«163915_j39934605918289_1_alg».proof.Proof.Gen.ReferenceIdeal.Read
import proofs.«163915_j39934605918289_1_alg».proof.Proof.Gen.Pre_finite_inputs
import proofs.«163915_j39934605918289_1_alg».proof.Proof.Final
import proofs.«163915_j39934605918289_1_alg».proof.Proof.RefSide
import proofs.«163915_j39934605918289_1_alg».proof.Proof.Finite
import Idealize.ShloMosaic.Adequacy
import Idealize.ShloMosaic.Init

noncomputable section

namespace Cert.Proof

open Idealize.ShloMosaic Idealize.SL.Sem

/-- Both idealized programs, from memories that agree on the five arguments, end with the specification's `out` of
    those arguments in their result arrays: the kernel program always, the reference because the precondition makes
    every entry a real number. -/
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  refine ⟨_, Cert.KernelIdeal.Final.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4⟩ := hagree c
  obtain ⟨r0, r1, r2, r3, r4⟩ := Cert.Pre_finite_inputs.Finite.allReal_of_pre _ _ _ _ _ (hpre c)
  rw [(h c).1, Cert.ReferenceIdeal.Read.val_main_v8_eq, a0, a1, a2, a3, a4]
  exact Cert.ReferenceIdeal.RefValue.ref_eq_out _ _ _ _ _ r0 r1 r2 r3 r4

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
